-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S_ : Shape := ⟨0, ![]⟩

class Facts : Prop where
  bcast_S_S8x2048x8 : S_.BroadcastsInDim S8x2048x8 (![] : Fin 0 → Fin S8x2048x8.rank)
  reducesTo_S8x2048x8_S_d0_1_2 : S8x2048x8.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S5x8x8 : S_.BroadcastsInDim S5x8x8 (![] : Fin 0 → Fin S5x8x8.rank)
  reducesTo_S5x8x8_S_d0_1_2 : S5x8x8.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x2048x8 .f32) (main_arg1 : FVec F S8x2048x2048 .f32) (main_arg2 : FVec F S5x8x8 .f32) (main_arg3 : FVec F S8 .f32) : IVec S_ 1 :=
  let main_v0 : FVec F S8x2048x8 .f32 := Host.absf main_arg0
  let main_cst : FVec F S_ .f32 := constant S_ .f32 0x7F800000#32
  let main_v1 : FVec F S8x2048x8 .f32 := broadcastInDim S8x2048x8 ![] bcast_S_S8x2048x8 main_cst
  let main_v2 : IVec S8x2048x8 1 := cmpf .olt main_v0 main_v1
  let main_c : IVec S_ 1 := constantI S_ 1 1#1
  let main_v3 : IVec S_ 1 := (fun x v => Host.reduce IntOp.andi x v reducesTo_S8x2048x8_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S5x8x8 .f32 := Host.absf main_arg2
  let main_cst_2 : FVec F S_ .f32 := constant S_ .f32 0x7F800000#32
  let main_v10 : FVec F S5x8x8 .f32 := broadcastInDim S5x8x8 ![] bcast_S_S5x8x8 main_cst_2
  let main_v11 : IVec S5x8x8 1 := cmpf .olt main_v9 main_v10
  let main_c_3 : IVec S_ 1 := constantI S_ 1 1#1
  let main_v12 : IVec S_ 1 := (fun x v => Host.reduce IntOp.andi x v reducesTo_S5x8x8_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S1x8 : Shape := ⟨2, ![1, 8]⟩
abbrev S1x2048x2048 : Shape := ⟨3, ![1, 2048, 2048]⟩
abbrev S1x2048x8 : Shape := ⟨3, ![1, 2048, 8]⟩
abbrev S2048x2048 : Shape := ⟨2, ![2048, 2048]⟩
abbrev S2048x8 : Shape := ⟨2, ![2048, 8]⟩
abbrev S1x8x8 : Shape := ⟨3, ![1, 8, 8]⟩
abbrev S8x8 : Shape := ⟨2, ![8, 8]⟩

abbrev nBuf : Space → Nat
  | .hbm => 6
  | .vmem => 10
  | .smem => 0
  | _ => 0

abbrev bufTy : (tb : Table) → Fin (tcTables nBuf tb) → BufTy
  | .hbm, ⟨0, _⟩ => ⟨S8x2048x8, .f32⟩
  | .hbm, ⟨1, _⟩ => ⟨S8x2048x2048, .f32⟩
  | .hbm, ⟨2, _⟩ => ⟨S5x8x8, .f32⟩
  | .hbm, ⟨3, _⟩ => ⟨S8, .f32⟩
  | .hbm, ⟨4, _⟩ => ⟨S1x8, .f32⟩
  | .hbm, ⟨5, _⟩ => ⟨S8x2048x8, .f32⟩
  | .local _ .vmem, ⟨0, _⟩ => ⟨S1x2048x2048, .f32⟩
  | .local _ .vmem, ⟨1, _⟩ => ⟨S1x2048x8, .f32⟩
  | .local _ .vmem, ⟨2, _⟩ => ⟨S1x2048x8, .f32⟩
  | .local _ .vmem, ⟨3, _⟩ => ⟨S5x8x8, .f32⟩
  | .local _ .vmem, ⟨4, _⟩ => ⟨S1x8, .f32⟩
  | .local _ .vmem, ⟨5, _⟩ => ⟨S1x2048x8, .f32⟩
  | .local _ .vmem, ⟨6, _⟩ => ⟨S1x2048x8, .f32⟩
  | .local _ .vmem, ⟨7, _⟩ => ⟨S2048x2048, .bf16⟩
  | .local _ .vmem, ⟨8, _⟩ => ⟨S2048x8, .f32⟩
  | .local _ .vmem, ⟨9, _⟩ => ⟨S2048x8, .f32⟩
  | _, _ => ⟨S8x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S1x2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8_S1x8 : S8.ShapeCasts S1x8
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S5x8x8_S1x8x8_0_0_0 : ∀ a, (![0, 0, 0] : Fin 3 → Nat) a + S1x8x8.size a ≤ S5x8x8.size a
  h_S1x8x8 : 0 < S1x8x8.numel
  shapeCasts_S1x8x8_S8x8 : S1x8x8.ShapeCasts S8x8
  inb_S5x8x8_S1x8x8_1_0_0 : ∀ a, (![1, 0, 0] : Fin 3 → Nat) a + S1x8x8.size a ≤ S5x8x8.size a
  inb_S5x8x8_S1x8x8_2_0_0 : ∀ a, (![2, 0, 0] : Fin 3 → Nat) a + S1x8x8.size a ≤ S5x8x8.size a
  inb_S5x8x8_S1x8x8_3_0_0 : ∀ a, (![3, 0, 0] : Fin 3 → Nat) a + S1x8x8.size a ≤ S5x8x8.size a
  inb_S5x8x8_S1x8x8_4_0_0 : ∀ a, (![4, 0, 0] : Fin 3 → Nat) a + S1x8x8.size a ≤ S5x8x8.size a
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  shapeCasts_S2048x8_S1x2048x8 : S2048x8.ShapeCasts S1x2048x8
  dot_S2048x8_S8x8_S2048x8_1_0_0_1_n_n_wf : DotDims.WF S2048x8 S8x8 S2048x8 [1] [0] [0] [1] [] []
  dot_S2048x2048_S2048x8_S2048x8_0_0_1_1_n_n_wf : DotDims.WF S2048x2048 S2048x8 S2048x8 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x8.size a ≤ S8x2048x8.size a
  hwx0_1 : ∀ i : grid0.Coords, EltTy.bits .f32 = 32 ∨ (Rect.block (s := S8x2048x8) S1x2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x8x8.size a ≤ S5x8x8.size a
  hwx0_2 : ∀ i : grid0.Coords, EltTy.bits .f32 = 32 ∨ (Rect.block (s := S5x8x8) S5x8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x8.size a ≤ S8x2048x8.size a
  hwx0_4 : ∀ i : grid0.Coords, EltTy.bits .f32 = 32 ∨ (Rect.block (s := S8x2048x8) S1x2048x8.size (cc0_transform_4 i) (hinb0_4 i)).WholeWords (EltTy.packing .f32)

variable [Facts₀]

def dot_S2048x8_S8x8_S2048x8_1_0_0_1_n_n : DotDims S2048x8 S8x8 S2048x8 where
  lhsContracting := [1]
  rhsContracting := [0]
  lhsNonContracting := [0]
  rhsNonContracting := [1]
  lhsBatch := []
  rhsBatch := []
  wf := dot_S2048x8_S8x8_S2048x8_1_0_0_1_n_n_wf
def dot_S2048x2048_S2048x8_S2048x8_0_0_1_1_n_n : DotDims S2048x2048 S2048x8 S2048x8 where
  lhsContracting := [0]
  rhsContracting := [0]
  lhsNonContracting := [1]
  rhsNonContracting := [1]
  lhsBatch := []
  rhsBatch := []
  wf := dot_S2048x2048_S2048x8_S2048x8_0_0_1_1_n_n_wf

abbrev win0_0 : Pipeline.Window sig grid0 :=
  Pipeline.Window.ofSpec (Memref.whole main_arg1) S1x2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x8 : Shape := ⟨3, ![8, 2048, 8]⟩
abbrev S8x2048x2048 : Shape := ⟨3, ![8, 2048, 2048]⟩
abbrev S5x8x8 : Shape := ⟨3, ![5, 8, 8]⟩
abbrev S8 : Shape := ⟨1, ![8]⟩
abbrev S1x8x8 : Shape := ⟨3, ![1, 8, 8]⟩
abbrev S8x8 : Shape := ⟨2, ![8, 8]⟩
abbrev S1x1x8 : Shape := ⟨3, ![1, 1, 8]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x8, .f32⟩
  | .hbm, ⟨1, _⟩ => ⟨S8x2048x2048, .f32⟩
  | .hbm, ⟨2, _⟩ => ⟨S5x8x8, .f32⟩
  | .hbm, ⟨3, _⟩ => ⟨S8, .f32⟩
  | .hbm, ⟨4, _⟩ => ⟨S1x8x8, .f32⟩
  | .hbm, ⟨5, _⟩ => ⟨S8x8, .f32⟩
  | .hbm, ⟨6, _⟩ => ⟨S8x2048x8, .f32⟩
  | .hbm, ⟨7, _⟩ => ⟨S8x2048x8, .f32⟩
  | .hbm, ⟨8, _⟩ => ⟨S1x8x8, .f32⟩
  | .hbm, ⟨9, _⟩ => ⟨S8x8, .f32⟩
  | .hbm, ⟨10, _⟩ => ⟨S8x2048x8, .f32⟩
  | .hbm, ⟨11, _⟩ => ⟨S8x2048x8, .f32⟩
  | .hbm, ⟨12, _⟩ => ⟨S8x2048x8, .f32⟩
  | .hbm, ⟨13, _⟩ => ⟨S1x8x8, .f32⟩
  | .hbm, ⟨14, _⟩ => ⟨S8x8, .f32⟩
  | .hbm, ⟨15, _⟩ => ⟨S8x2048x8, .f32⟩
  | .hbm, ⟨16, _⟩ => ⟨S8x2048x8, .f32⟩
  | .hbm, ⟨17, _⟩ => ⟨S8x2048x8, .f32⟩
  | .hbm, ⟨18, _⟩ => ⟨S1x8x8, .f32⟩
  | .hbm, ⟨19, _⟩ => ⟨S8x8, .f32⟩
  | .hbm, ⟨20, _⟩ => ⟨S8x2048x8, .f32⟩
  | .hbm, ⟨21, _⟩ => ⟨S8x2048x8, .f32⟩
  | .hbm, ⟨22, _⟩ => ⟨S8x2048x8, .f32⟩
  | .hbm, ⟨23, _⟩ => ⟨S1x8x8, .f32⟩
  | .hbm, ⟨24, _⟩ => ⟨S8x8, .f32⟩
  | .hbm, ⟨25, _⟩ => ⟨S8x2048x8, .f32⟩
  | .hbm, ⟨26, _⟩ => ⟨S8x2048x8, .f32⟩
  | .hbm, ⟨27, _⟩ => ⟨S1x1x8, .f32⟩
  | .hbm, ⟨28, _⟩ => ⟨S8x2048x8, .f32⟩
  | .hbm, ⟨29, _⟩ => ⟨S8x2048x8, .f32⟩
  | _, _ => ⟨S8x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]

class Facts₀ : Prop where
  slices_S5x8x8_S1x8x8_0_0_0 : S5x8x8.Slices ![0, 0, 0] S1x8x8
  shapeCasts_S1x8x8_S8x8 : S1x8x8.ShapeCasts S8x8
  slices_S5x8x8_S1x8x8_1_0_0 : S5x8x8.Slices ![1, 0, 0] S1x8x8
  slices_S5x8x8_S1x8x8_2_0_0 : S5x8x8.Slices ![2, 0, 0] S1x8x8
  slices_S5x8x8_S1x8x8_3_0_0 : S5x8x8.Slices ![3, 0, 0] S1x8x8
  slices_S5x8x8_S1x8x8_4_0_0 : S5x8x8.Slices ![4, 0, 0] S1x8x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  dot_S8x2048x8_S8x8_S8x2048x8_2_0_01_1_n_n_wf : DotDims.WF S8x2048x8 S8x8 S8x2048x8 [2] [0] [0, 1] [1] [] []
  dot_S8x2048x2048_S8x2048x8_S8x2048x8_1_1_2_2_0_0_wf : DotDims.WF S8x2048x2048 S8x2048x8 S8x2048x8 [1] [1] [2] [2] [0] [0]

variable [Facts₀]

def dot_S8x2048x8_S8x8_S8x2048x8_2_0_01_1_n_n : DotDims S8x2048x8 S8x8 S8x2048x8 where
  lhsContracting := [2]
  rhsContracting := [0]
  lhsNonContracting := [0, 1]
  rhsNonContracting := [1]
  lhsBatch := []
  rhsBatch := []
  wf := dot_S8x2048x8_S8x8_S8x2048x8_2_0_01_1_n_n_wf
def dot_S8x2048x2048_S8x2048x8_S8x2048x8_1_1_2_2_0_0 : DotDims S8x2048x2048 S8x2048x8 S8x2048x8 where
  lhsContracting := [1]
  rhsContracting := [1]
  lhsNonContracting := [2]
  rhsNonContracting := [2]
  lhsBatch := [0]
  rhsBatch := [0]
  wf := dot_S8x2048x2048_S8x2048x8_S8x2048x8_1_1_2_2_0_0_wf

class Facts : Prop extends Facts₀ where

variable [Facts]
-- ==== Proof.LibCoveredLoad.lean ====
/-
  A whole-buffer load after writes of which the LAST wrote the whole buffer.

  A kernel body that keeps a scratch buffer and, each time it writes it, writes ALL of it (a store through the rectangle
  at zero offsets with the buffer's own sizes) can be followed by a later whole-buffer load without knowing anything
  about the earlier writes or the buffer's prior contents: the load reads the payload stored last.  The library has the
  one-write case (`View.readCov_unit_zero`); this is the case of any number of earlier writes, of any rectangles.
  It holds for every value type, shape, memory space and rank.
-/
import Idealize.ShloMosaic.Lib.Pipeline.Value

namespace Idealize.ShloMosaic.View

variable {Val : EltTy → Type} {S : Shape} {e : EltTy}

/-- A whole-buffer load after a list of writes (last first) whose LAST one wrote the whole buffer reads that last
    payload `w`, whatever the earlier writes `L` were: every index lies under the head piece, so the contents the writes
    leave are `w` everywhere, and a load through the whole-shape rectangle reads the contents. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View
-- ==== Proof.BodyRun.lean ====
/-
  What one grid point of the kernel leaves in its output block, as ONE pure term of the four blocks it is given.

  At grid point `b` the body is handed the shift operator's block `S[b]` (`[1, 2048, 2048]`), the signal's block `x[b]`
  (`[1, 2048, 8]`), all five taps `W` (`[5, 8, 8]`) and the bias as a row (`[1, 8]`).  It keeps three buffers of its own:
  the operator narrowed to sixteen bits, the current signal, and the running sum.  It writes each buffer WHOLE every time
  it writes it, and reads it back whole, so a read after a write is just the value written last, whatever the buffer held
  before: the body's result does not depend on what an earlier grid point left behind.  Following the sixteen stores and
  the loads between them in program order:

      S' = narrow S[b]                      X₀ = x[b]                A₀ = X₀ · W₀
      X₁ = S'ᵀ X₀        A₁ = A₀ + X₁ · W₁
      X₂ = S'ᵀ X₁        A₂ = A₁ + X₂ · W₂
      X₃ = S'ᵀ X₂        A₃ = A₂ + X₃ · W₃
      X₄ = S'ᵀ X₃        A₄ = A₃ + X₄ · W₄            out = A₄ + bias

  (`X₄` itself is stored too, and never read.)  `bodyVal` is that term over the body's own payload functions, for any
  float instance; `out_eq_body` says the pieces the symbolic run found for the output block, read back, are `bodyVal`
  of the input blocks.
-/
import proofs.«126347_j66554813219094_1_alg».proof.Proof.Gen.KernelIdeal.Frame
import proofs.«126347_j66554813219094_1_alg».proof.Proof.LibCoveredLoad
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Tap `k` as the body loads it: the `[1, 8, 8]` rectangle of the taps' buffer at offset `(k, 0, 0)`. -/
abbrev tapLd0 (W : Vec F S5x8x8 .f32) : Vec F S1x8x8 .f32 := View.ld W (Rect.unit (s := S5x8x8) ![0, 0, 0] S1x8x8.size inb_S5x8x8_S1x8x8_0_0_0)
abbrev tapLd1 (W : Vec F S5x8x8 .f32) : Vec F S1x8x8 .f32 := View.ld W (Rect.unit (s := S5x8x8) ![1, 0, 0] S1x8x8.size inb_S5x8x8_S1x8x8_1_0_0)
abbrev tapLd2 (W : Vec F S5x8x8 .f32) : Vec F S1x8x8 .f32 := View.ld W (Rect.unit (s := S5x8x8) ![2, 0, 0] S1x8x8.size inb_S5x8x8_S1x8x8_2_0_0)
abbrev tapLd3 (W : Vec F S5x8x8 .f32) : Vec F S1x8x8 .f32 := View.ld W (Rect.unit (s := S5x8x8) ![3, 0, 0] S1x8x8.size inb_S5x8x8_S1x8x8_3_0_0)
abbrev tapLd4 (W : Vec F S5x8x8 .f32) : Vec F S1x8x8 .f32 := View.ld W (Rect.unit (s := S5x8x8) ![4, 0, 0] S1x8x8.size inb_S5x8x8_S1x8x8_4_0_0)

/-- The body's result block as a pure term of its four input blocks (the table in this file's header). -/
def bodyVal (S : Vec F S1x2048x2048 .f32) (x : Vec F S1x2048x8 .f32) (W : Vec F S5x8x8 .f32) (β : Vec F S1x8 .f32) :
    Vec F S1x2048x8 .f32 :=
  k0_pay1
    (k0_pay16
      (k0_pay12 (k0_pay11 (k0_pay9 (k0_pay6 (k0_pay3 x) (k0_pay2 S)) (k0_pay2 S)) (k0_pay2 S)))
      (k0_pay2 S)
      (k0_pay13 (k0_pay11 (k0_pay9 (k0_pay6 (k0_pay3 x) (k0_pay2 S)) (k0_pay2 S)) (k0_pay2 S))
        (k0_pay10 (k0_pay6 (k0_pay3 x) (k0_pay2 S)) (k0_pay2 S)
          (k0_pay7 (k0_pay5 (k0_pay3 x) (k0_pay2 S)) (k0_pay4 (k0_pay3 x) (tapLd0 W)) (tapLd1 W))
          (tapLd2 W))
        (tapLd3 W))
      (tapLd4 W))
    β

/-- The pieces the symbolic run found for the output block, read back, are `bodyVal` of the input blocks: every
    buffer of the body's own is written whole and read back whole, so each load reads the last payload stored. -/
theorem out_eq_body (c : Dev nD) (i : grid0.Coords) (arg1 : Memref sig .tc .vmem S1x2048x2048 .f32) (harg1 : arg1.IsWhole) (arg2 : Memref sig .tc .vmem S1x2048x8 .f32) (harg2 : arg2.IsWhole) (arg3 : Memref sig .tc .vmem S5x8x8 .f32) (harg3 : arg3.IsWhole) (arg4 : Memref sig .tc .vmem S1x8 .f32) (harg4 : arg4.IsWhole) (arg5 : Memref sig .tc .vmem S1x2048x8 .f32) (harg5 : arg5.IsWhole) (arg6 : Memref sig .tc .vmem S2048x2048 .bf16) (harg6 : arg6.IsWhole) (arg7 : Memref sig .tc .vmem S2048x8 .f32) (harg7 : arg7.IsWhole) (arg8 : Memref sig .tc .vmem S2048x8 .f32) (harg8 : arg8.IsWhole)
    (x0 : Vec F S1x2048x2048 .f32) (x1 : Vec F S1x2048x8 .f32) (x2 : Vec F S5x8x8 .f32) (x3 : Vec F S1x8 .f32) :
    out0_A_4 c i arg1 harg1 arg2 harg2 arg3 harg3 arg4 harg4 arg5 harg5 arg6 harg6 arg7 harg7 arg8 harg8 x0 x1 x2 x3 = bodyVal x0 x1 x2 x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero hz3]
  simp only [View.readAt_eq_ld, harg1.read_unread, harg2.read_unread, harg3.read_unread, harg4.read_unread,
    View.ld_unit_zero (S := S1x2048x2048) hz3, View.ld_unit_zero (S := S1x2048x8) hz3, View.ld_unit_zero (S := S1x8) hz2,
    View.readCov_unit_zero (S := S2048x2048) _ hz2, View.readCov_unit_zero (S := S2048x8) _ hz2,
    View.readCov_cons_unit_zero (S := S2048x8) _ hz2]
  rfl

end Cert.KernelIdeal.Body

end
-- ==== Proof.Spec.lean ====
/-
  The graph filter, as mathematics.  For a batch of signals `x[b, n, f]` on `N = 2048` nodes with `8` features,
  a batch of shift operators `S[b, m, n]`, five taps `W[k, f, g]` and a bias `β[g]`, the filter is

      y = ((((x·W₀ + x₁·W₁) + x₂·W₂) + x₃·W₃) + x₄·W₄) + β,     x₀ = x,   x_{k+1} = Sᵀ x_k,

  where `(Sᵀ x)[b, n, f] = Σ_m S[b, m, n] · x[b, m, f]` and `(x·W_k)[b, n, g] = Σ_f x[b, n, f] · W[k, f, g]`.
  Everything here is over the extended reals, where sums and products are the exact ones; the sums are finite sums over
  `Fin 2048` and `Fin 8`, and the additions are taken in exactly the order written, so no law of arithmetic is
  needed to compare two programs that both compute `y` this way.

  The same filter is also written for ONE batch entry: a shift operator `[2048, 2048]`, a signal `[2048, 8]`
  (`shift₂`, `tap₂`, `filter₂At`).  The batch entry `b` of the whole filter is the one-entry filter of the `b`-th
  slices (`filter_slice`): a slice of a sum over `m` is the sum over `m` of the slices, term by term.
-/
import Idealize.ShloMosaic.PureOps.Ideal
import Idealize.ShloMosaic.Lib.ValueIdx

noncomputable section

open scoped BigOperators

namespace GraphFilter

open Idealize.ShloMosaic Idealize.ShloMosaic.ValueIdx

/-- Signals `[8, 2048, 8]`, shift operators `[8, 2048, 2048]`, taps `[5, 8, 8]`, the bias `[8]`, as extended reals. -/
abbrev Sig := (⟨3, ![8, 2048, 8]⟩ : Shape).Idx → EReal
abbrev Ops := (⟨3, ![8, 2048, 2048]⟩ : Shape).Idx → EReal
abbrev Taps := (⟨3, ![5, 8, 8]⟩ : Shape).Idx → EReal
abbrev Bias := (⟨1, ![8]⟩ : Shape).Idx → EReal
/-- One batch entry: a signal `[2048, 8]`, a shift operator `[2048, 2048]`. -/
abbrev Sig₂ := (⟨2, ![2048, 8]⟩ : Shape).Idx → EReal
abbrev Ops₂ := (⟨2, ![2048, 2048]⟩ : Shape).Idx → EReal

/-! ## The whole batch -/

/-- `(Sᵀ x)[b, n, f] = Σ_m S[b, m, n] · x[b, m, f]`. -/
def shiftAt (S : Ops) (x : Sig) (b : Fin 8) (n : Fin 2048) (f : Fin 8) : EReal :=
  ∑ m : Fin 2048, S (ix3 b m n) * x (ix3 b m f)
def shift (S : Ops) (x : Sig) : Sig := fun i => shiftAt S x (i 0) (i 1) (i 2)

/-- `(x · W_k)[b, n, g] = Σ_f x[b, n, f] · W[k, f, g]`. -/
def tapAt (W : Taps) (k : Fin 5) (x : Sig) (b : Fin 8) (n : Fin 2048) (g : Fin 8) : EReal :=
  ∑ f : Fin 8, x (ix3 b n f) * W (ix3 k f g)
def tap (W : Taps) (k : Fin 5) (x : Sig) : Sig := fun i => tapAt W k x (i 0) (i 1) (i 2)

/-- The filter's value at `(b, n, g)`: the five taps of the five shifted signals added left to right, then the bias. -/
def filterAt (x : Sig) (S : Ops) (W : Taps) (β : Bias) (b : Fin 8) (n : Fin 2048) (g : Fin 8) : EReal :=
  ((((tapAt W 0 x b n g
      + tapAt W 1 (shift S x) b n g)
      + tapAt W 2 (shift S (shift S x)) b n g)
      + tapAt W 3 (shift S (shift S (shift S x))) b n g)
      + tapAt W 4 (shift S (shift S (shift S (shift S x)))) b n g)
    + β (ix1 g)
def filter (x : Sig) (S : Ops) (W : Taps) (β : Bias) : Sig := fun i => filterAt x S W β (i 0) (i 1) (i 2)

theorem shift_ix3 (S : Ops) (x : Sig) (b : Fin 8) (n : Fin 2048) (f : Fin 8) :
    shift S x (ix3 b n f) = shiftAt S x b n f := rfl
theorem tap_ix3 (W : Taps) (k : Fin 5) (x : Sig) (b : Fin 8) (n : Fin 2048) (g : Fin 8) :
    tap W k x (ix3 b n g) = tapAt W k x b n g := rfl
theorem filter_ix3 (x : Sig) (S : Ops) (W : Taps) (β : Bias) (b : Fin 8) (n : Fin 2048) (g : Fin 8) :
    filter x S W β (ix3 b n g) = filterAt x S W β b n g := rfl

/-! ## One batch entry -/

/-- The `b`-th signal and the `b`-th shift operator of a batch. -/
def sigSlice (x : Sig) (b : Fin 8) : Sig₂ := fun j => x (ix3 b (j 0) (j 1))
def opsSlice (S : Ops) (b : Fin 8) : Ops₂ := fun j => S (ix3 b (j 0) (j 1))

/-- A block the kernel is handed has a leading axis of extent one: `[1, 2048, 8]`, `[1, 2048, 2048]`, and the bias
    as a row `[1, 8]`.  Dropping that axis gives the one-entry signal, operator and bias. -/
abbrev Sig₁ := (⟨3, ![1, 2048, 8]⟩ : Shape).Idx → EReal
abbrev Ops₁ := (⟨3, ![1, 2048, 2048]⟩ : Shape).Idx → EReal
abbrev Bias₁ := (⟨2, ![1, 8]⟩ : Shape).Idx → EReal
def sigDrop (x : Sig₁) : Sig₂ := fun j => x (ix3 (0 : Fin 1) (j 0) (j 1))
def opsDrop (S : Ops₁) : Ops₂ := fun j => S (ix3 (0 : Fin 1) (j 0) (j 1))
def biasDrop (β : Bias₁) : Bias := fun j => β (ix2 (0 : Fin 1) (j 0))

/-- `(Sᵀ x)[n, f] = Σ_m S[m, n] · x[m, f]` for one entry. -/
def shift₂At (S : Ops₂) (x : Sig₂) (n : Fin 2048) (f : Fin 8) : EReal := ∑ m : Fin 2048, S (ix2 m n) * x (ix2 m f)
def shift₂ (S : Ops₂) (x : Sig₂) : Sig₂ := fun j => shift₂At S x (j 0) (j 1)
/-- `(x · W_k)[n, g] = Σ_f x[n, f] · W[k, f, g]` for one entry. -/
def tap₂At (W : Taps) (k : Fin 5) (x : Sig₂) (n : Fin 2048) (g : Fin 8) : EReal := ∑ f : Fin 8, x (ix2 n f) * W (ix3 k f g)
def tap₂ (W : Taps) (k : Fin 5) (x : Sig₂) : Sig₂ := fun j => tap₂At W k x (j 0) (j 1)

/-- The filter of one entry at `(n, g)`. -/
def filter₂At (x : Sig₂) (S : Ops₂) (W : Taps) (β : Bias) (n : Fin 2048) (g : Fin 8) : EReal :=
  ((((tap₂At W 0 x n g
      + tap₂At W 1 (shift₂ S x) n g)
      + tap₂At W 2 (shift₂ S (shift₂ S x)) n g)
      + tap₂At W 3 (shift₂ S (shift₂ S (shift₂ S x))) n g)
      + tap₂At W 4 (shift₂ S (shift₂ S (shift₂ S (shift₂ S x)))) n g)
    + β (ix1 g)

theorem shift₂_ix2 (S : Ops₂) (x : Sig₂) (n : Fin 2048) (f : Fin 8) : shift₂ S x (ix2 n f) = shift₂At S x n f := rfl
theorem tap₂_ix2 (W : Taps) (k : Fin 5) (x : Sig₂) (n : Fin 2048) (g : Fin 8) : tap₂ W k x (ix2 n g) = tap₂At W k x n g := rfl

/-- The `b`-th slice of the shifted batch is the shift of the `b`-th slices: the two sums over `m` have the same terms. -/
theorem sigSlice_shift (S : Ops) (x : Sig) (b : Fin 8) : sigSlice (shift S x) b = shift₂ (opsSlice S b) (sigSlice x b) := rfl

/-- A tap of the batch at `(b, n, g)` is the tap of the `b`-th slice at `(n, g)`. -/
theorem tapAt_slice (W : Taps) (k : Fin 5) (x : Sig) (b : Fin 8) (n : Fin 2048) (g : Fin 8) :
    tapAt W k x b n g = tap₂At W k (sigSlice x b) n g := rfl

/-- Entry `b` of the batch's filter is the one-entry filter of the `b`-th slices. -/
theorem filterAt_slice (x : Sig) (S : Ops) (W : Taps) (β : Bias) (b : Fin 8) (n : Fin 2048) (g : Fin 8) :
    filterAt x S W β b n g = filter₂At (sigSlice x b) (opsSlice S b) W β n g := by
  unfold filterAt filter₂At
  simp only [tapAt_slice, sigSlice_shift]

end GraphFilter

end
-- ==== Proof.BodyFilter.lean ====
/-
  The kernel's body at the exact reals: one grid point computes the graph filter of one batch entry.

  Read over the extended reals, narrowing to sixteen bits and widening back are the identity, a matrix product into a
  zero accumulator is the plain finite sum of products, and a shape cast that only drops or adds an axis of extent one
  re-names indices.  So each of the body's payloads is one of three things: the transposed shift
  `(S'ᵀ X)[n, f] = Σ_m S'[m, n] · X[m, f]` (the product contracts the operator's FIRST axis with the signal's first
  axis); a running sum plus a tap `A[n, g] + Σ_f X[n, f] · W[k, f, g]` (the product contracts the feature axis; the
  tap is the `k`-th `[1, 8, 8]` rectangle of the taps' buffer); or the last sum plus the bias row broadcast down the
  nodes.  Composed in the body's order they are `GraphFilter.filter₂At` of the blocks with their unit axes dropped
  (`body_eq`), term for term: the same sums, the same order of the five additions, the bias last.
-/
import proofs.«126347_j66554813219094_1_alg».proof.Proof.BodyRun
import proofs.«126347_j66554813219094_1_alg».proof.Proof.Spec
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx GraphFilter

/-! ## The two matrix products at an index -/

/-- `[2048, 8] × [8, 8]`, contracting the left operand's second axis with the right operand's first: the operands'
    indices at output `(n, g)` and contraction coordinate `k` are `(n, k)` and `(k, g)`. -/
theorem tapL_0 (j : S2048x8.Idx) (q : dot_S2048x8_S8x8_S2048x8_1_0_0_1_n_n.contr.Idx) : (dot_S2048x8_S8x8_S2048x8_1_0_0_1_n_n.lhsIdx j q 0).val = (j 0).val := by
  unfold DotDims.lhsIdx
  rw [dif_neg (show ¬(0 : Fin S2048x8.rank) ∈ dot_S2048x8_S8x8_S2048x8_1_0_0_1_n_n.lhsBatch by decide), dif_pos (show (0 : Fin S2048x8.rank) ∈ dot_S2048x8_S8x8_S2048x8_1_0_0_1_n_n.lhsNonContracting by decide)]
  rfl
theorem tapL_1 (j : S2048x8.Idx) (q : dot_S2048x8_S8x8_S2048x8_1_0_0_1_n_n.contr.Idx) : (dot_S2048x8_S8x8_S2048x8_1_0_0_1_n_n.lhsIdx j q 1).val = (q ⟨0, by decide⟩).val :=
  dot_S2048x8_S8x8_S2048x8_1_0_0_1_n_n.lhsIdx_val_of_single rfl j q
theorem tapR_0 (j : S2048x8.Idx) (q : dot_S2048x8_S8x8_S2048x8_1_0_0_1_n_n.contr.Idx) : (dot_S2048x8_S8x8_S2048x8_1_0_0_1_n_n.rhsIdx j q 0).val = (q ⟨0, by decide⟩).val :=
  dot_S2048x8_S8x8_S2048x8_1_0_0_1_n_n.rhsIdx_val_of_single rfl j q
theorem tapR_1 (j : S2048x8.Idx) (q : dot_S2048x8_S8x8_S2048x8_1_0_0_1_n_n.contr.Idx) : (dot_S2048x8_S8x8_S2048x8_1_0_0_1_n_n.rhsIdx j q 1).val = (j 1).val := by
  unfold DotDims.rhsIdx
  rw [dif_neg (show ¬(1 : Fin S8x8.rank) ∈ dot_S2048x8_S8x8_S2048x8_1_0_0_1_n_n.rhsBatch by decide), dif_pos (show (1 : Fin S8x8.rank) ∈ dot_S2048x8_S8x8_S2048x8_1_0_0_1_n_n.rhsNonContracting by decide)]
  rfl

/-- The tap product into a zero accumulator, at `(n, g)`: `Σ_f X[n, f] · w[f, g]`. -/
theorem tapMM {φ₁ φ₂ : FTy} (X : FVec Ideal S2048x8 φ₁) (w : FVec Ideal S8x8 φ₂) (n : Fin 2048) (g : Fin 8) :
    matmul dot_S2048x8_S8x8_S2048x8_1_0_0_1_n_n none X w (constant (F := Ideal) S2048x8 .f32 0x00000000#32) (ix2 n g)
      = ∑ f : Fin 8, X (ix2 n f) * w (ix2 f g) := by
  simp only [matmul]
  rw [Ideal.matmul_constant_zero_apply, ← Equiv.sum_comp (contrEquiv1 dot_S2048x8_S8x8_S2048x8_1_0_0_1_n_n 8 rfl rfl).symm]
  refine Finset.sum_congr rfl fun k _ => ?_
  have hk := contrEquiv1_symm_val dot_S2048x8_S8x8_S2048x8_1_0_0_1_n_n 8 rfl rfl k
  have el : dot_S2048x8_S8x8_S2048x8_1_0_0_1_n_n.lhsIdx (ix2 n g) ((contrEquiv1 dot_S2048x8_S8x8_S2048x8_1_0_0_1_n_n 8 rfl rfl).symm k) = ix2 n k := funext fun a => Fin.ext (by
    match a with
    | ⟨0, _⟩ => exact tapL_0 _ _
    | ⟨1, _⟩ => exact (tapL_1 _ _).trans hk)
  have er : dot_S2048x8_S8x8_S2048x8_1_0_0_1_n_n.rhsIdx (ix2 n g) ((contrEquiv1 dot_S2048x8_S8x8_S2048x8_1_0_0_1_n_n 8 rfl rfl).symm k) = ix2 k g := funext fun a => Fin.ext (by
    match a with
    | ⟨0, _⟩ => exact (tapR_0 _ _).trans hk
    | ⟨1, _⟩ => exact tapR_1 _ _)
  rw [el, er]

/-- `[2048, 2048] × [2048, 8]`, contracting BOTH operands' first axes: the operands' indices at output `(n, f)` and
    contraction coordinate `k` are `(k, n)` and `(k, f)` — the left operand is used transposed. -/
theorem shiftL_0 (j : S2048x8.Idx) (q : dot_S2048x2048_S2048x8_S2048x8_0_0_1_1_n_n.contr.Idx) : (dot_S2048x2048_S2048x8_S2048x8_0_0_1_1_n_n.lhsIdx j q 0).val = (q ⟨0, by decide⟩).val :=
  dot_S2048x2048_S2048x8_S2048x8_0_0_1_1_n_n.lhsIdx_val_of_single rfl j q
theorem shiftL_1 (j : S2048x8.Idx) (q : dot_S2048x2048_S2048x8_S2048x8_0_0_1_1_n_n.contr.Idx) : (dot_S2048x2048_S2048x8_S2048x8_0_0_1_1_n_n.lhsIdx j q 1).val = (j 0).val := by
  unfold DotDims.lhsIdx
  rw [dif_neg (show ¬(1 : Fin S2048x2048.rank) ∈ dot_S2048x2048_S2048x8_S2048x8_0_0_1_1_n_n.lhsBatch by decide), dif_pos (show (1 : Fin S2048x2048.rank) ∈ dot_S2048x2048_S2048x8_S2048x8_0_0_1_1_n_n.lhsNonContracting by decide)]
  rfl
theorem shiftR_0 (j : S2048x8.Idx) (q : dot_S2048x2048_S2048x8_S2048x8_0_0_1_1_n_n.contr.Idx) : (dot_S2048x2048_S2048x8_S2048x8_0_0_1_1_n_n.rhsIdx j q 0).val = (q ⟨0, by decide⟩).val :=
  dot_S2048x2048_S2048x8_S2048x8_0_0_1_1_n_n.rhsIdx_val_of_single rfl j q
theorem shiftR_1 (j : S2048x8.Idx) (q : dot_S2048x2048_S2048x8_S2048x8_0_0_1_1_n_n.contr.Idx) : (dot_S2048x2048_S2048x8_S2048x8_0_0_1_1_n_n.rhsIdx j q 1).val = (j 1).val := by
  unfold DotDims.rhsIdx
  rw [dif_neg (show ¬(1 : Fin S2048x8.rank) ∈ dot_S2048x2048_S2048x8_S2048x8_0_0_1_1_n_n.rhsBatch by decide), dif_pos (show (1 : Fin S2048x8.rank) ∈ dot_S2048x2048_S2048x8_S2048x8_0_0_1_1_n_n.rhsNonContracting by decide)]
  rfl

/-- The shift product into a zero accumulator, at `(n, f)`: `Σ_m S[m, n] · X[m, f]`. -/
theorem shiftMM {φ₁ φ₂ : FTy} (S : FVec Ideal S2048x2048 φ₁) (X : FVec Ideal S2048x8 φ₂) (n : Fin 2048) (f : Fin 8) :
    matmul dot_S2048x2048_S2048x8_S2048x8_0_0_1_1_n_n none S X (constant (F := Ideal) S2048x8 .f32 0x00000000#32) (ix2 n f)
      = ∑ k : Fin 2048, S (ix2 k n) * X (ix2 k f) := by
  simp only [matmul]
  rw [Ideal.matmul_constant_zero_apply, ← Equiv.sum_comp (contrEquiv1 dot_S2048x2048_S2048x8_S2048x8_0_0_1_1_n_n 2048 rfl rfl).symm]
  refine Finset.sum_congr rfl fun k _ => ?_
  have hk := contrEquiv1_symm_val dot_S2048x2048_S2048x8_S2048x8_0_0_1_1_n_n 2048 rfl rfl k
  have el : dot_S2048x2048_S2048x8_S2048x8_0_0_1_1_n_n.lhsIdx (ix2 n f) ((contrEquiv1 dot_S2048x2048_S2048x8_S2048x8_0_0_1_1_n_n 2048 rfl rfl).symm k) = ix2 k n := funext fun a => Fin.ext (by
    match a with
    | ⟨0, _⟩ => exact (shiftL_0 _ _).trans hk
    | ⟨1, _⟩ => exact shiftL_1 _ _)
  have er : dot_S2048x2048_S2048x8_S2048x8_0_0_1_1_n_n.rhsIdx (ix2 n f) ((contrEquiv1 dot_S2048x2048_S2048x8_S2048x8_0_0_1_1_n_n 2048 rfl rfl).symm k) = ix2 k f := funext fun a => Fin.ext (by
    match a with
    | ⟨0, _⟩ => exact (shiftR_0 _ _).trans hk
    | ⟨1, _⟩ => exact shiftR_1 _ _)
  rw [el, er]

/-! ## The body's two kinds of product, named -/

/-- The shift as the body writes it: the narrowed operator times the narrowed signal, into zeros. -/
def shiftP (S : FVec Ideal S2048x2048 .bf16) (X : Vec Ideal S2048x8 .f32) : FVec Ideal S2048x8 .f32 :=
  matmul dot_S2048x2048_S2048x8_S2048x8_0_0_1_1_n_n none S (truncf .bf16 X bitsLt_bf16_f32) (constant S2048x8 .f32 0x00000000#32)

/-- The tap as the body writes it: the narrowed signal times the narrowed `[8, 8]` tap (a loaded `[1, 8, 8]`
    rectangle with its unit axis dropped), into zeros. -/
def tapP (w : Vec Ideal S1x8x8 .f32) (X : FVec Ideal S2048x8 .f32) : FVec Ideal S2048x8 .f32 :=
  matmul dot_S2048x8_S8x8_S2048x8_1_0_0_1_n_n none (truncf .bf16 X bitsLt_bf16_f32)
    (truncf .bf16 (shapeCast S8x8 w shapeCasts_S1x8x8_S8x8) bitsLt_bf16_f32) (constant S2048x8 .f32 0x00000000#32)

theorem shiftP_eq (S : FVec Ideal S2048x2048 .bf16) (X : Vec Ideal S2048x8 .f32) : shiftP S X = shift₂ S X := by
  funext j
  obtain ⟨n, f, rfl⟩ : ∃ (n : Fin 2048) (f : Fin 8), j = ix2 n f := ⟨j 0, j 1, eq_ix2 j⟩
  exact shiftMM S _ n f

theorem tapP_apply (w : Vec Ideal S1x8x8 .f32) (X : FVec Ideal S2048x8 .f32) (n : Fin 2048) (g : Fin 8) :
    tapP w X (ix2 n g) = ∑ f : Fin 8, X (ix2 n f) * w (ix3 (0 : Fin 1) f g) := by
  refine (tapMM _ _ n g).trans (Finset.sum_congr rfl fun f _ => ?_)
  show X (ix2 n f) * shapeCast S8x8 w shapeCasts_S1x8x8_S8x8 (ix2 f g) = _
  rw [shapeCast_1ab_ab_apply]

/-- The `k`-th `[1, 8, 8]` rectangle of the taps' buffer at `(0, f, g)` is `W[k, f, g]`: a rectangle at offsets
    `(k, 0, 0)` and unit strides places `(0, f, g)` at `(k + 0, 0 + f, 0 + g)`.  So the body's `k`-th tap product is
    `GraphFilter.tap₂At W k`. -/
theorem tapLd0_apply (W : Vec Ideal S5x8x8 .f32) (f g : Fin 8) : tapLd0 W (ix3 (0 : Fin 1) f g) = W (ix3 (0 : Fin 5) f g) :=
  congrArg W (funext fun a => Fin.ext (by
    match a with
    | ⟨0, _⟩ => rfl
    | ⟨1, _⟩ => show 0 + 1 * f.val = f.val; omega
    | ⟨2, _⟩ => show 0 + 1 * g.val = g.val; omega))
theorem tapP_ld0 (W : Vec Ideal S5x8x8 .f32) (X : FVec Ideal S2048x8 .f32) (n : Fin 2048) (g : Fin 8) :
    tapP (tapLd0 W) X (ix2 n g) = tap₂At W 0 X n g :=
  (tapP_apply _ _ n g).trans (Finset.sum_congr rfl fun f _ => congrArg (X (ix2 n f) * ·) (tapLd0_apply W f g))
theorem tapLd1_apply (W : Vec Ideal S5x8x8 .f32) (f g : Fin 8) : tapLd1 W (ix3 (0 : Fin 1) f g) = W (ix3 (1 : Fin 5) f g) :=
  congrArg W (funext fun a => Fin.ext (by
    match a with
    | ⟨0, _⟩ => rfl
    | ⟨1, _⟩ => show 0 + 1 * f.val = f.val; omega
    | ⟨2, _⟩ => show 0 + 1 * g.val = g.val; omega))
theorem tapP_ld1 (W : Vec Ideal S5x8x8 .f32) (X : FVec Ideal S2048x8 .f32) (n : Fin 2048) (g : Fin 8) :
    tapP (tapLd1 W) X (ix2 n g) = tap₂At W 1 X n g :=
  (tapP_apply _ _ n g).trans (Finset.sum_congr rfl fun f _ => congrArg (X (ix2 n f) * ·) (tapLd1_apply W f g))
theorem tapLd2_apply (W : Vec Ideal S5x8x8 .f32) (f g : Fin 8) : tapLd2 W (ix3 (0 : Fin 1) f g) = W (ix3 (2 : Fin 5) f g) :=
  congrArg W (funext fun a => Fin.ext (by
    match a with
    | ⟨0, _⟩ => rfl
    | ⟨1, _⟩ => show 0 + 1 * f.val = f.val; omega
    | ⟨2, _⟩ => show 0 + 1 * g.val = g.val; omega))
theorem tapP_ld2 (W : Vec Ideal S5x8x8 .f32) (X : FVec Ideal S2048x8 .f32) (n : Fin 2048) (g : Fin 8) :
    tapP (tapLd2 W) X (ix2 n g) = tap₂At W 2 X n g :=
  (tapP_apply _ _ n g).trans (Finset.sum_congr rfl fun f _ => congrArg (X (ix2 n f) * ·) (tapLd2_apply W f g))
theorem tapLd3_apply (W : Vec Ideal S5x8x8 .f32) (f g : Fin 8) : tapLd3 W (ix3 (0 : Fin 1) f g) = W (ix3 (3 : Fin 5) f g) :=
  congrArg W (funext fun a => Fin.ext (by
    match a with
    | ⟨0, _⟩ => rfl
    | ⟨1, _⟩ => show 0 + 1 * f.val = f.val; omega
    | ⟨2, _⟩ => show 0 + 1 * g.val = g.val; omega))
theorem tapP_ld3 (W : Vec Ideal S5x8x8 .f32) (X : FVec Ideal S2048x8 .f32) (n : Fin 2048) (g : Fin 8) :
    tapP (tapLd3 W) X (ix2 n g) = tap₂At W 3 X n g :=
  (tapP_apply _ _ n g).trans (Finset.sum_congr rfl fun f _ => congrArg (X (ix2 n f) * ·) (tapLd3_apply W f g))
theorem tapLd4_apply (W : Vec Ideal S5x8x8 .f32) (f g : Fin 8) : tapLd4 W (ix3 (0 : Fin 1) f g) = W (ix3 (4 : Fin 5) f g) :=
  congrArg W (funext fun a => Fin.ext (by
    match a with
    | ⟨0, _⟩ => rfl
    | ⟨1, _⟩ => show 0 + 1 * f.val = f.val; omega
    | ⟨2, _⟩ => show 0 + 1 * g.val = g.val; omega))
theorem tapP_ld4 (W : Vec Ideal S5x8x8 .f32) (X : FVec Ideal S2048x8 .f32) (n : Fin 2048) (g : Fin 8) :
    tapP (tapLd4 W) X (ix2 n g) = tap₂At W 4 X n g :=
  (tapP_apply _ _ n g).trans (Finset.sum_congr rfl fun f _ => congrArg (X (ix2 n f) * ·) (tapLd4_apply W f g))

/-! ## The payloads -/

theorem pay2_eq (S : Vec Ideal S1x2048x2048 .f32) : k0_pay2 (F := Ideal) S = opsDrop S := by
  funext j
  obtain ⟨p, q, rfl⟩ : ∃ (p q : Fin 2048), j = ix2 p q := ⟨j 0, j 1, eq_ix2 j⟩
  unfold k0_pay2
  exact (congrFun (shapeCast_self _ _) _).trans (shapeCast_1ab_ab_apply S _ p q)
theorem pay3_eq (x : Vec Ideal S1x2048x8 .f32) : k0_pay3 (F := Ideal) x = sigDrop x := by
  funext j
  obtain ⟨p, q, rfl⟩ : ∃ (p : Fin 2048) (q : Fin 8), j = ix2 p q := ⟨j 0, j 1, eq_ix2 j⟩
  unfold k0_pay3
  exact (congrFun (shapeCast_self _ _) _).trans (shapeCast_1ab_ab_apply x _ p q)
theorem pay4_eq (X : Vec Ideal S2048x8 .f32) (w : Vec Ideal S1x8x8 .f32) : k0_pay4 (F := Ideal) X w = tapP w X := by
  unfold k0_pay4; exact shapeCast_self _ _
theorem pay5_eq (X : Vec Ideal S2048x8 .f32) (S : Vec Ideal S2048x2048 .bf16) : k0_pay5 (F := Ideal) X S = shiftP S X := rfl
theorem pay6_eq (X : Vec Ideal S2048x8 .f32) (S : Vec Ideal S2048x2048 .bf16) : k0_pay6 (F := Ideal) X S = shiftP S X := by
  unfold k0_pay6; exact shapeCast_self _ _
theorem pay7_eq (X : FVec Ideal S2048x8 .f32) (A : Vec Ideal S2048x8 .f32) (w : Vec Ideal S1x8x8 .f32) :
    k0_pay7 (F := Ideal) X A w = addf A (tapP w X) := by
  unfold k0_pay7; exact shapeCast_self _ _
theorem pay9_eq (X : Vec Ideal S2048x8 .f32) (S : Vec Ideal S2048x2048 .bf16) : k0_pay9 (F := Ideal) X S = shiftP S X := by
  unfold k0_pay9; exact shapeCast_self _ _
theorem pay10_eq (X : Vec Ideal S2048x8 .f32) (S : Vec Ideal S2048x2048 .bf16) (A : Vec Ideal S2048x8 .f32) (w : Vec Ideal S1x8x8 .f32) :
    k0_pay10 (F := Ideal) X S A w = addf A (tapP w (shiftP S X)) := by
  unfold k0_pay10; exact shapeCast_self _ _
theorem pay11_eq (X : Vec Ideal S2048x8 .f32) (S : Vec Ideal S2048x2048 .bf16) : k0_pay11 (F := Ideal) X S = shiftP S X := rfl
theorem pay12_eq (X : FVec Ideal S2048x8 .f32) : k0_pay12 (F := Ideal) X = X := by
  unfold k0_pay12; exact shapeCast_self _ _
theorem pay13_eq (X : FVec Ideal S2048x8 .f32) (A : Vec Ideal S2048x8 .f32) (w : Vec Ideal S1x8x8 .f32) :
    k0_pay13 (F := Ideal) X A w = addf A (tapP w X) := by
  unfold k0_pay13; exact shapeCast_self _ _
theorem pay16_eq (X : Vec Ideal S2048x8 .f32) (S : Vec Ideal S2048x2048 .bf16) (A : Vec Ideal S2048x8 .f32) (w : Vec Ideal S1x8x8 .f32) :
    k0_pay16 (F := Ideal) X S A w = addf A (tapP w (shiftP S X)) := by
  unfold k0_pay16; exact shapeCast_self _ _
/-- The stored block at `(u, n, g)`: the last running sum at `(n, g)` plus the bias row at `g`. -/
theorem pay1_apply (A : Vec Ideal S2048x8 .f32) (β : Vec Ideal S1x8 .f32) (u : Fin 1) (n : Fin 2048) (g : Fin 8) :
    k0_pay1 (F := Ideal) A β (ix3 u n g) = A (ix2 n g) + β (ix2 (0 : Fin 1) g) := by
  unfold k0_pay1
  refine (shapeCast_ab_1ab_apply _ _ u n g).trans ?_
  show A (ix2 n g) + broadcastTo S2048x8 (shapeCast S1x8 β shapeCasts_S1x8_S1x8) broadcasts_S1x8_S2048x8 (ix2 n g) = _
  rw [broadcastTo_1b_ab_apply, shapeCast_self]

/-! ## One grid point is the one-entry filter -/

/-- The body's result block at `(u, n, g)` is the graph filter of the blocks with their unit axes dropped, at `(n, g)`. -/
theorem body_eq (S : Vec Ideal S1x2048x2048 .f32) (x : Vec Ideal S1x2048x8 .f32) (W : Vec Ideal S5x8x8 .f32) (β : Vec Ideal S1x8 .f32)
    (u : Fin 1) (n : Fin 2048) (g : Fin 8) :
    bodyVal (F := Ideal) S x W β (ix3 u n g) = filter₂At (sigDrop x) (opsDrop S) W (biasDrop β) n g := by
  unfold bodyVal
  rw [pay1_apply]
  simp only [pay16_eq, pay13_eq, pay12_eq, pay11_eq, pay10_eq, pay9_eq, pay7_eq, pay6_eq, pay5_eq, pay4_eq, pay3_eq, pay2_eq,
    shiftP_eq, addf_apply, tapP_ld0, tapP_ld1, tapP_ld2, tapP_ld3, tapP_ld4]
  rfl

end Cert.KernelIdeal.Body

end
-- ==== Proof.KernelFilter.lean ====
/-
  From grid points to the whole result array.

  The kernel runs on a grid of eight points, one per batch entry.  At point `b` the pipeline hands the body block `b` of
  the shift operators (`S[b, :, :]` as `[1, 2048, 2048]`), block `b` of the signals (`x[b, :, :]` as `[1, 2048, 8]`),
  the whole taps array and the whole bias row, and writes the body's result block back as `y[b, :, :]`: every window's
  index map is `b ↦ (b, 0, 0)` or constant.  The eight written blocks are the eight batch entries of the result, so they
  cover it, each index `(b, n, g)` lying in the block of point `b` and no other.

  One point computes the one-entry graph filter of its blocks (Proof/BodyFilter.lean), and entry `b` of the batch's
  filter is the one-entry filter of the `b`-th slices (`GraphFilter.filterAt_slice`).  Hence the result array after the
  run is `GraphFilter.filter` of the four argument arrays as launched (`final`), and the run of the whole program is
  restated with that post (`run`).  The bias reaches the kernel as a `[1, 8]` row, a reshape of the `[8]` argument made
  by the one host operation before the launch.
-/
import proofs.«126347_j66554813219094_1_alg».proof.Proof.Gen.KernelIdeal.Value
import proofs.«126347_j66554813219094_1_alg».proof.Proof.BodyFilter
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.FilterValue

open Cert.KernelIdeal Cert.KernelIdeal.Gen Cert.KernelIdeal.Body Idealize.ShloMosaic.ValueIdx GraphFilter

variable (m : (ℓ : Loc nD τ sig) → Buf (Elt Ideal) ℓ) (ρ : Dev nD → PrngReg)

/-! ## The arrays the region finds, and the blocks a point is handed, by their literal types -/

abbrev xArr (c : Dev nD) : Vec Ideal S8x2048x8 .f32 := V m c main_arg0
abbrev sArr (c : Dev nD) : Vec Ideal S8x2048x2048 .f32 := V m c main_arg1
abbrev wArr (c : Dev nD) : Vec Ideal S5x8x8 .f32 := V m c main_arg2
abbrev bRow (c : Dev nD) : Vec Ideal S1x8 .f32 := V m c main_v0

abbrev sBlk (c : Dev nD) (t : Fin cfg0.N) : Vec Ideal S1x2048x2048 .f32 := iblk m c 0 t
abbrev xBlk (c : Dev nD) (t : Fin cfg0.N) : Vec Ideal S1x2048x8 .f32 := iblk m c 1 t
abbrev wBlk (c : Dev nD) (t : Fin cfg0.N) : Vec Ideal S5x8x8 .f32 := iblk m c 2 t
abbrev bBlk (c : Dev nD) (t : Fin cfg0.N) : Vec Ideal S1x8 .f32 := iblk m c 3 t

/-- The batch entry a grid point works on: the point's own number. -/
def entry (t : Fin cfg0.N) : Fin 8 := ⟨t.val, by have h : t.val < grid0.N := t.isLt; rw [N_0] at h; exact h⟩

/-- The printed index maps, decided over the eight points: the operator's, the signal's and the result's blocks are at
    `(t, 0, 0)`; the taps' and the bias row's at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The operator's block at point `t` is entry `t` of the operators. -/
theorem sBlk_apply (c : Dev nD) (t : Fin cfg0.N) (u : Fin 1) (p q : Fin 2048) :
    sBlk m c t (ix3 u p q) = sArr m c (ix3 (entry t) p q) := by
  obtain ⟨e0, e1, e2, -⟩ := idx_facts t
  show V m c main_arg1 (((cfg0.win 0).blk t).view.emb (ix3 u p q)) = V m c main_arg1 (ix3 (entry t) p q)
  refine congrArg _ (funext fun a => Fin.ext ?_)
  match a with
  | ⟨0, _⟩ => show win0_0.index t (0 : Fin 3) * 1 + 1 * u.val = t.val; have := u.isLt; omega
  | ⟨1, _⟩ => show win0_0.index t (1 : Fin 3) * 2048 + 1 * p.val = p.val; omega
  | ⟨2, _⟩ => show win0_0.index t (2 : Fin 3) * 2048 + 1 * q.val = q.val; omega

/-- The signal's block at point `t` is entry `t` of the signals. -/
theorem xBlk_apply (c : Dev nD) (t : Fin cfg0.N) (u : Fin 1) (p : Fin 2048) (q : Fin 8) :
    xBlk m c t (ix3 u p q) = xArr m c (ix3 (entry t) p q) := by
  obtain ⟨-, -, -, e0, e1, e2, -⟩ := idx_facts t
  show V m c main_arg0 (((cfg0.win 1).blk t).view.emb (ix3 u p q)) = V m c main_arg0 (ix3 (entry t) p q)
  refine congrArg _ (funext fun a => Fin.ext ?_)
  match a with
  | ⟨0, _⟩ => show win0_1.index t (0 : Fin 3) * 1 + 1 * u.val = t.val; have := u.isLt; omega
  | ⟨1, _⟩ => show win0_1.index t (1 : Fin 3) * 2048 + 1 * p.val = p.val; omega
  | ⟨2, _⟩ => show win0_1.index t (2 : Fin 3) * 8 + 1 * q.val = q.val; omega

/-- The taps' block at every point is the whole taps array. -/
theorem wBlk_eq (c : Dev nD) (t : Fin cfg0.N) : wBlk m c t = wArr m c := by
  obtain ⟨-, -, -, -, -, -, e0, e1, e2, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 3) * 5 + 1 * (j 0).val = (j 0).val; omega
  | ⟨1, _⟩ => show win0_2.index t (1 : Fin 3) * 8 + 1 * (j 1).val = (j 1).val; omega
  | ⟨2, _⟩ => show win0_2.index t (2 : Fin 3) * 8 + 1 * (j 2).val = (j 2).val; omega

/-- The bias row's block at every point is the whole row. -/
theorem bBlk_eq (c : Dev nD) (t : Fin cfg0.N) : bBlk m c t = bRow m c := by
  obtain ⟨-, -, -, -, -, -, -, -, -, e0, e1, -⟩ := idx_facts t
  funext j
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 8 + 1 * (j 1).val = (j 1).val; omega

/-- The row the region finds is the `[8]` bias argument reshaped to `[1, 8]`: the one host operation before the launch. -/
theorem bRow_eq (c : Dev nD) : bRow m c = shapeCast S1x8 (m ((c : Thread nD τ).loc main_arg3)) shapeCasts_S8_S1x8 := by
  dsimp only [bRow, V, hostOps0]; after_results; rfl

theorem bias_eq (c : Dev nD) : biasDrop (bRow m c) = m ((c : Thread nD τ).loc main_arg3) := by
  funext j
  obtain ⟨g, rfl⟩ : ∃ g : Fin 8, j = ix1 g := ⟨j 0, eq_ix1 j⟩
  show bRow m c (ix2 (0 : Fin 1) g) = _
  rw [bRow_eq, shapeCast_a_1a_apply]

/-! ## The result -/

/-- The graph filter of the four argument arrays as launched. -/
abbrev result (c : Dev nD) : Buf (Elt Ideal) ((c : Thread nD τ).loc main_v1) :=
  filter (m ((c : Thread nD τ).loc main_arg0)) (m ((c : Thread nD τ).loc main_arg1)) (m ((c : Thread nD τ).loc main_arg2))
    (m ((c : Thread nD τ).loc main_arg3))

/-- What point `t` writes back is block `t` of the filter: the body computes the one-entry filter of its blocks, its
    blocks are the `t`-th slices, and entry `t` of the batch's filter is the one-entry filter of those slices. -/
theorem flushed_eq (c : Dev nD) (t : Fin cfg0.N) :
    (dats m 0 c).flushed 4 t = ((cfg0.win 4).blk t).view.read (Elt Ideal) (result m c) := by
  rw [Cert.KernelIdeal.Value.flushed4_A, out_eq_body]
  funext j
  obtain ⟨u, n, g, rfl⟩ : ∃ (u : Fin 1) (n : Fin 2048) (g : Fin 8), j = ix3 u n g := ⟨j 0, j 1, j 2, eq_ix3 j⟩
  show bodyVal (sBlk m c t) (xBlk m c t) (wBlk m c t) (bBlk m c t) (ix3 u n g)
    = result m c (((cfg0.win 4).blk t).view.emb (ix3 u n g))
  have hemb : ((cfg0.win 4).blk t).view.emb (ix3 u n g) = (ix3 (entry t) n g : S8x2048x8.Idx) := by
    obtain ⟨-, -, -, -, -, -, -, -, -, -, -, e0, e1, e2⟩ := idx_facts t
    refine funext fun a => Fin.ext ?_
    match a with
    | ⟨0, _⟩ => show win0_4.index t (0 : Fin 3) * 1 + 1 * u.val = t.val; have := u.isLt; omega
    | ⟨1, _⟩ => show win0_4.index t (1 : Fin 3) * 2048 + 1 * n.val = n.val; omega
    | ⟨2, _⟩ => show win0_4.index t (2 : Fin 3) * 8 + 1 * g.val = g.val; omega
  have hx : sigDrop (xBlk m c t) = sigSlice (m ((c : Thread nD τ).loc main_arg0)) (entry t) := by
    funext j
    obtain ⟨p, q, rfl⟩ : ∃ (p : Fin 2048) (q : Fin 8), j = ix2 p q := ⟨j 0, j 1, eq_ix2 j⟩
    exact (xBlk_apply m c t 0 p q).trans (congrFun (V_main_arg0 m c) _)
  have hS : opsDrop (sBlk m c t) = opsSlice (m ((c : Thread nD τ).loc main_arg1)) (entry t) := by
    funext j
    obtain ⟨p, q, rfl⟩ : ∃ (p q : Fin 2048), j = ix2 p q := ⟨j 0, j 1, eq_ix2 j⟩
    exact (sBlk_apply m c t 0 p q).trans (congrFun (V_main_arg1 m c) _)
  have hW : wBlk m c t = m ((c : Thread nD τ).loc main_arg2) := (wBlk_eq m c t).trans (V_main_arg2 m c)
  have hβ : biasDrop (bBlk m c t) = m ((c : Thread nD τ).loc main_arg3) := by rw [bBlk_eq]; exact bias_eq m c
  refine (body_eq (sBlk m c t) (xBlk m c t) (wBlk m c t) (bBlk m c t) u n g).trans ?_
  rw [hemb, hx, hS, hW, hβ]
  exact (filterAt_slice _ _ _ _ (entry t) n g).symm

/-- An index of the result lies in point `t`'s block iff each coordinate is in the block's range on its axis. -/
theorem mem_blk (t : Fin cfg0.N) (i : S8x2048x8.Idx) :
    i ∈ ((cfg0.win 4).blk t).view.set ↔ ∀ a : Fin 3, win0_4.index t a * S1x2048x8.size a ≤ (i a).val ∧ (i a).val < win0_4.index t a * S1x2048x8.size a + S1x2048x8.size a := by
  show i ∈ ((View.whole main_v1).slice (win0_4.rect t)).set ↔ _
  rw [View.set_slice_whole, Rect.mem_set_unit]
  exact Iff.rfl

/-- The result array after the run is the graph filter of the arguments: index `(b, n, g)` lies in the block of point `b`. -/
theorem final (c : Dev nD) : (dats m 0 c).arrAt 4 cfg0.N = result m c :=
  (dats m 0 c).arrAt_eq_of_cover 4 (result m c) (fun t _ => flushed_eq m c t) fun i => by
    have hb : (i 0).val < 8 := (i 0).isLt
    have hn : (i 1).val < 2048 := (i 1).isLt
    have hg : (i 2).val < 8 := (i 2).isLt
    let t : Fin cfg0.N := ⟨(i 0).val, by show (i 0).val < grid0.N; rw [N_0]; exact hb⟩
    obtain ⟨-, -, -, -, -, -, -, -, -, -, -, e0, e1, e2⟩ := idx_facts t
    have ht : t.val = (i 0).val := rfl
    refine ⟨t, flush0_4 t, ?_⟩
    rw [mem_blk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 2048 ≤ (i 1).val ∧ (i 1).val < win0_4.index t (1 : Fin 3) * 2048 + 2048; omega
    | ⟨2, _⟩ => show win0_4.index t (2 : Fin 3) * 8 ≤ (i 2).val ∧ (i 2).val < win0_4.index t (2 : Fin 3) * 8 + 8; omega

/-- The kernel's run: every weakly fair execution terminates with the result array at the graph filter of the argument
    arrays, and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.FilterValue

end
-- ==== Proof.RefFilter.lean ====
/-
  The reference computes the graph filter.  Its `@main` is a straight line of twenty-six host operations: for each tap
  `k` a slice `[k:k+1, 0:8, 0:8]` of the taps reshaped to `[8, 8]`; a `dot_general` of the current signal with it
  (contracting the feature axis); and, between taps, a batched `dot_general` of the shift operators with the current
  signal, contracting the operator's FIRST node axis with the signal's node axis — which is the transposed shift
  `(Sᵀ x)[b, n, f] = Σ_m S[b, m, n] · x[b, m, f]`.  Read at an index of coordinates `(b, n, g)`, every product is a
  finite sum with the same terms, in the same order of factors, as `GraphFilter.shiftAt` / `GraphFilter.tapAt`; the five
  additions and the bias are in the order `GraphFilter.filterAt` writes them.  So the run's result is
  `GraphFilter.filter` of the four arguments, with no law of arithmetic used: only the index maps of the operations.
-/
import proofs.«126347_j66554813219094_1_alg».proof.Proof.Gen.ReferenceIdeal.Read
import proofs.«126347_j66554813219094_1_alg».proof.Proof.Spec

noncomputable section

open scoped BigOperators

namespace Cert.ReferenceIdeal.FilterValue

open Cert.ReferenceIdeal Cert.ReferenceIdeal.Read Idealize.ShloMosaic Idealize.ShloMosaic.ValueIdx GraphFilter

/-- Two rank-3 indices with the same three coordinates (as naturals) are equal: the index maps of the generated
    read lemmas and the coordinate form `ix3 …` agree axis by axis. -/
local macro "idx3" : tactic =>
  `(tactic| (funext a; refine Fin.ext ?_; match a with | ⟨0, _⟩ => rfl | ⟨1, _⟩ => rfl | ⟨2, _⟩ => rfl))
local macro "idx2" : tactic =>
  `(tactic| (funext a; refine Fin.ext ?_; match a with | ⟨0, _⟩ => rfl | ⟨1, _⟩ => rfl))

/-! ## The taps: slice `k` of `W`, reshaped, at `(f, g)` is `W[k, f, g]` -/

/-- The row-major position `8 f + g` of `(f, g)` in `[8, 8]` splits back into `f` and `g`. -/
theorem split8 (f g : Fin 8) : (f.val * 8 + g.val) / 8 % 8 = f.val ∧ (f.val * 8 + g.val) % 8 = g.val := by
  have := f.isLt; have := g.isLt; constructor <;> omega

theorem tap0 (W : Taps) (f g : Fin 8) : val_main_v1 (F := Ideal) W (ix2 f g) = W (ix3 (0 : Fin 5) f g) := by
  rw [val_main_v1_apply, val_main_v0_apply]
  refine congrArg W (funext fun a => Fin.ext ?_)
  match a with
  | ⟨0, _⟩ => rfl
  | ⟨1, _⟩ => exact (split8 f g).1
  | ⟨2, _⟩ => exact (split8 f g).2
theorem tap1 (W : Taps) (f g : Fin 8) : val_main_v5 (F := Ideal) W (ix2 f g) = W (ix3 (1 : Fin 5) f g) := by
  rw [val_main_v5_apply, val_main_v4_apply]
  refine congrArg W (funext fun a => Fin.ext ?_)
  match a with
  | ⟨0, _⟩ => rfl
  | ⟨1, _⟩ => exact (split8 f g).1
  | ⟨2, _⟩ => exact (split8 f g).2
theorem tap2 (W : Taps) (f g : Fin 8) : val_main_v10 (F := Ideal) W (ix2 f g) = W (ix3 (2 : Fin 5) f g) := by
  rw [val_main_v10_apply, val_main_v9_apply]
  refine congrArg W (funext fun a => Fin.ext ?_)
  match a with
  | ⟨0, _⟩ => rfl
  | ⟨1, _⟩ => exact (split8 f g).1
  | ⟨2, _⟩ => exact (split8 f g).2
theorem tap3 (W : Taps) (f g : Fin 8) : val_main_v15 (F := Ideal) W (ix2 f g) = W (ix3 (3 : Fin 5) f g) := by
  rw [val_main_v15_apply, val_main_v14_apply]
  refine congrArg W (funext fun a => Fin.ext ?_)
  match a with
  | ⟨0, _⟩ => rfl
  | ⟨1, _⟩ => exact (split8 f g).1
  | ⟨2, _⟩ => exact (split8 f g).2
theorem tap4 (W : Taps) (f g : Fin 8) : val_main_v20 (F := Ideal) W (ix2 f g) = W (ix3 (4 : Fin 5) f g) := by
  rw [val_main_v20_apply, val_main_v19_apply]
  refine congrArg W (funext fun a => Fin.ext ?_)
  match a with
  | ⟨0, _⟩ => rfl
  | ⟨1, _⟩ => exact (split8 f g).1
  | ⟨2, _⟩ => exact (split8 f g).2

/-! ## The four shifts -/

theorem shifted1 (x : Sig) (S : Ops) : val_main_v3 (F := Ideal) x S = shift S x := by
  funext i
  obtain ⟨b, n, f, rfl⟩ : ∃ (b : Fin 8) (n : Fin 2048) (f : Fin 8), i = ix3 b n f := ⟨i 0, i 1, i 2, eq_ix3 i⟩
  rw [val_main_v3_apply, shift_ix3]
  refine Finset.sum_congr rfl fun k _ => ?_
  rw [show lidx_main_v3 (ix3 b n f) k = ix3 b k n from by idx3, show ridx_main_v3 (ix3 b n f) k = ix3 b k f from by idx3]
theorem shifted2 (x : Sig) (S : Ops) : val_main_v8 (F := Ideal) x S = shift S (shift S x) := by
  funext i
  obtain ⟨b, n, f, rfl⟩ : ∃ (b : Fin 8) (n : Fin 2048) (f : Fin 8), i = ix3 b n f := ⟨i 0, i 1, i 2, eq_ix3 i⟩
  rw [val_main_v8_apply, shift_ix3, shifted1]
  refine Finset.sum_congr rfl fun k _ => ?_
  rw [show lidx_main_v8 (ix3 b n f) k = ix3 b k n from by idx3, show ridx_main_v8 (ix3 b n f) k = ix3 b k f from by idx3]
theorem shifted3 (x : Sig) (S : Ops) : val_main_v13 (F := Ideal) x S = shift S (shift S (shift S x)) := by
  funext i
  obtain ⟨b, n, f, rfl⟩ : ∃ (b : Fin 8) (n : Fin 2048) (f : Fin 8), i = ix3 b n f := ⟨i 0, i 1, i 2, eq_ix3 i⟩
  rw [val_main_v13_apply, shift_ix3, shifted2]
  refine Finset.sum_congr rfl fun k _ => ?_
  rw [show lidx_main_v13 (ix3 b n f) k = ix3 b k n from by idx3, show ridx_main_v13 (ix3 b n f) k = ix3 b k f from by idx3]
theorem shifted4 (x : Sig) (S : Ops) : val_main_v18 (F := Ideal) x S = shift S (shift S (shift S (shift S x))) := by
  funext i
  obtain ⟨b, n, f, rfl⟩ : ∃ (b : Fin 8) (n : Fin 2048) (f : Fin 8), i = ix3 b n f := ⟨i 0, i 1, i 2, eq_ix3 i⟩
  rw [val_main_v18_apply, shift_ix3, shifted3]
  refine Finset.sum_congr rfl fun k _ => ?_
  rw [show lidx_main_v18 (ix3 b n f) k = ix3 b k n from by idx3, show ridx_main_v18 (ix3 b n f) k = ix3 b k f from by idx3]

/-! ## The five tapped signals -/

theorem tapped0 (x : Sig) (W : Taps) (b : Fin 8) (n : Fin 2048) (g : Fin 8) :
    val_main_v2 (F := Ideal) x W (ix3 b n g) = tapAt W 0 x b n g := by
  rw [val_main_v2_apply]
  refine Finset.sum_congr rfl fun k _ => ?_
  rw [show lidx_main_v2 (ix3 b n g) k = ix3 b n k from by idx3, show ridx_main_v2 (ix3 b n g) k = ix2 k g from by idx2, tap0]
theorem tapped1 (x : Sig) (S : Ops) (W : Taps) (b : Fin 8) (n : Fin 2048) (g : Fin 8) :
    val_main_v6 (F := Ideal) x S W (ix3 b n g) = tapAt W 1 (shift S x) b n g := by
  rw [val_main_v6_apply, shifted1]
  refine Finset.sum_congr rfl fun k _ => ?_
  rw [show lidx_main_v6 (ix3 b n g) k = ix3 b n k from by idx3, show ridx_main_v6 (ix3 b n g) k = ix2 k g from by idx2, tap1]
theorem tapped2 (x : Sig) (S : Ops) (W : Taps) (b : Fin 8) (n : Fin 2048) (g : Fin 8) :
    val_main_v11 (F := Ideal) x S W (ix3 b n g) = tapAt W 2 (shift S (shift S x)) b n g := by
  rw [val_main_v11_apply, shifted2]
  refine Finset.sum_congr rfl fun k _ => ?_
  rw [show lidx_main_v11 (ix3 b n g) k = ix3 b n k from by idx3, show ridx_main_v11 (ix3 b n g) k = ix2 k g from by idx2, tap2]
theorem tapped3 (x : Sig) (S : Ops) (W : Taps) (b : Fin 8) (n : Fin 2048) (g : Fin 8) :
    val_main_v16 (F := Ideal) x S W (ix3 b n g) = tapAt W 3 (shift S (shift S (shift S x))) b n g := by
  rw [val_main_v16_apply, shifted3]
  refine Finset.sum_congr rfl fun k _ => ?_
  rw [show lidx_main_v16 (ix3 b n g) k = ix3 b n k from by idx3, show ridx_main_v16 (ix3 b n g) k = ix2 k g from by idx2, tap3]
theorem tapped4 (x : Sig) (S : Ops) (W : Taps) (b : Fin 8) (n : Fin 2048) (g : Fin 8) :
    val_main_v21 (F := Ideal) x S W (ix3 b n g) = tapAt W 4 (shift S (shift S (shift S (shift S x)))) b n g := by
  rw [val_main_v21_apply, shifted4]
  refine Finset.sum_congr rfl fun k _ => ?_
  rw [show lidx_main_v21 (ix3 b n g) k = ix3 b n k from by idx3, show ridx_main_v21 (ix3 b n g) k = ix2 k g from by idx2, tap4]

/-! ## The bias, broadcast along batch and node -/

theorem biased (β : Bias) (b : Fin 8) (n : Fin 2048) (g : Fin 8) : val_main_v24 (F := Ideal) β (ix3 b n g) = β (ix1 g) := by
  rw [val_main_v24_apply, val_main_v23_apply]
  refine congrArg β (funext fun a => Fin.ext ?_)
  match a with
  | ⟨0, _⟩ => rfl

/-! ## The whole reference -/

/-- The reference's result, as a function of its four arguments, is the graph filter. -/
theorem result_eq (x : Sig) (S : Ops) (W : Taps) (β : Bias) : val_main_v25 (F := Ideal) x S W β = filter x S W β := by
  funext i
  obtain ⟨b, n, g, rfl⟩ : ∃ (b : Fin 8) (n : Fin 2048) (g : Fin 8), i = ix3 b n g := ⟨i 0, i 1, i 2, eq_ix3 i⟩
  rw [filter_ix3, val_main_v25_apply, val_main_v22_apply, val_main_v17_apply, val_main_v12_apply, val_main_v7_apply,
    tapped0, tapped1, tapped2, tapped3, tapped4, biased]
  rfl

end Cert.ReferenceIdeal.FilterValue

end
-- ==== Proof.lean ====
/-
  A graph filter on batched signals: the kernel against its reference, over the extended reals.

  Both programs compute, for signals `x[b, n, f]` on 2048 nodes, shift operators `S[b, m, n]`, five taps `W[k, f, g]`
  and a bias `β[g]`,

      y = ((((x·W₀ + x₁·W₁) + x₂·W₂) + x₃·W₃) + x₄·W₄) + β,     x₀ = x,   x_{k+1} = Sᵀ x_k,

  with `(Sᵀ x)[b, n, f] = Σ_m S[b, m, n] · x[b, m, f]` and `(x·W_k)[b, n, g] = Σ_f x[b, n, f] · W[k, f, g]`
  (Proof/Spec.lean: `GraphFilter.filter`).  The reference does it on the whole batch with batched products
  (Proof/RefFilter.lean).  The kernel does it one batch entry per grid point: it keeps the entry's operator, narrowed to
  sixteen bits, and the current signal and running sum in buffers of its own, each written whole and read back whole, and
  multiplies with narrowed operands into zero accumulators (Proof/BodyRun.lean, Proof/BodyFilter.lean); the eight
  result blocks are the eight entries of the result (Proof/KernelFilter.lean).  Over the extended reals narrowing is the
  identity and a product into zeros is the plain finite sum, and the two programs add the same sums of the same products
  in the same order — so they agree term for term, and no law of arithmetic beyond re-naming indices is used; in
  particular the finiteness of the inputs is not needed.

  The three frames: the kernel's, at the word level and at the exact reals, are the generated frame certificates; the
  reference's is its generated run with the result dropped.  The idealization rewrote nothing, so `preserves` is `True`.
-/
import proofs.«126347_j66554813219094_1_alg».proof.Defs
import proofs.«126347_j66554813219094_1_alg».proof.Proof.Gen.Kernel
import proofs.«126347_j66554813219094_1_alg».proof.Proof.Gen.Kernel.Skeleton
import proofs.«126347_j66554813219094_1_alg».proof.Proof.Gen.Kernel.Launch
import proofs.«126347_j66554813219094_1_alg».proof.Proof.Gen.Kernel.Points
import proofs.«126347_j66554813219094_1_alg».proof.Proof.Gen.Kernel.Frame
import proofs.«126347_j66554813219094_1_alg».proof.Proof.Gen.KernelIdeal
import proofs.«126347_j66554813219094_1_alg».proof.Proof.Gen.KernelIdeal.Skeleton
import proofs.«126347_j66554813219094_1_alg».proof.Proof.Gen.KernelIdeal.Launch
import proofs.«126347_j66554813219094_1_alg».proof.Proof.Gen.KernelIdeal.Points
import proofs.«126347_j66554813219094_1_alg».proof.Proof.Gen.KernelIdeal.Frame
import proofs.«126347_j66554813219094_1_alg».proof.Proof.Gen.ReferenceIdeal
import proofs.«126347_j66554813219094_1_alg».proof.Proof.Gen.Pre_finite_inputs
import proofs.«126347_j66554813219094_1_alg».proof.Proof.Gen.KernelIdeal.Value
import proofs.«126347_j66554813219094_1_alg».proof.Proof.Gen.ReferenceIdeal.Run
import proofs.«126347_j66554813219094_1_alg».proof.Proof.Gen.ReferenceIdeal.Read
import proofs.«126347_j66554813219094_1_alg».proof.Proof.KernelFilter
import proofs.«126347_j66554813219094_1_alg».proof.Proof.RefFilter
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, the kernel's result array ends at the graph filter of its arguments
    and the reference's result at the graph filter of its own: the same array. -/
theorem algebraic : Cert.algebraic_KernelIdeal_ReferenceIdeal := by
  intro m ρ m' ρ' _ hagree
  refine ⟨fun c => Cert.KernelIdeal.FilterValue.result m c, Cert.KernelIdeal.FilterValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.FilterValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
